-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x1600000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S8192x128 : Shape := ⟨2, ![8192, 128]⟩
abbrev S8192x64 : Shape := ⟨2, ![8192, 64]⟩
abbrev S1700000x64 : Shape := ⟨2, ![1700000, 64]⟩
abbrev S1x64 : Shape := ⟨2, ![1, 64]⟩

abbrev nBuf : Space → Nat
  | .hbm => 64
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .local _ .vmem, ⟨0, _⟩ => ⟨S8192x128, .f32⟩
  | .local _ .vmem, ⟨1, _⟩ => ⟨S8192x128, .f32⟩
  | .local _ .vmem, ⟨2, _⟩ => ⟨S128x64, .f32⟩
  | .local _ .vmem, ⟨3, _⟩ => ⟨S8192x64, .f32⟩
  | .local _ .vmem, ⟨4, _⟩ => ⟨S8192x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S8192x128_S128x64_S8192x64_1_0_0_1_n_n_wf : DotDims.WF S8192x128 S128x64 S8192x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x128.size a < S100000x128.size a
  hwx0_0 : ∀ i : grid0.Coords, EltTy.bits .f32 = 32 ∨ (Rect.unit (s := S100000x128) (fun a => cc0_transform_0 i a * S8192x128.size a) (fun a => (Pipeline.Clip.of (cc0_transform_0 i a) (S8192x128.size a) (S100000x128.size a)).extent (S8192x128.size a)) fun a => Pipeline.Clip.inb (Pipeline.Clip.ok_of (hstart0_0 i a))).WholeWords (EltTy.packing .f32)
  hwxs0_0 : ∀ i : grid0.Coords, EltTy.bits .f32 = 32 ∨ (Rect.unit (s := S8192x128) (fun _ => 0) (fun a => (Pipeline.Clip.of (cc0_transform_0 i a) (S8192x128.size a) (S100000x128.size a)).extent (S8192x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S100000x64.size a
  hwx0_2 : ∀ i : grid0.Coords, EltTy.bits .f32 = 32 ∨ (Rect.unit (s := S100000x64) (fun a => cc0_transform_2 i a * S8192x64.size a) (fun a => (Pipeline.Clip.of (cc0_transform_2 i a) (S8192x64.size a) (S100000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S100000x64.size a)).extent (S8192x64.size a)) fun a => (Nat.zero_add _).trans_le (Pipeline.Clip.extent_le (Pipeline.Clip.ok_of (hstart0_2 i a)))).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpecClip (Memref.whole main_arg0) S8192x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v30) S8192x64.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x64, .f32⟩
  | .hbm, ⟨45, _⟩ => ⟨S1700000x1, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelBody.lean ====
/-
  The kernel body's triple, once for every float family: on whole staging buffers holding `x0` (a block of `x`,
  8192 rows of 128) and `x1` (all of `W`, 128 by 64) the body loads both, rounds both to bf16, multiplies them on
  the matrix unit into a zero accumulator and stores the 8192 by 64 product over the whole result buffer; the two
  input buffers are left as they were. The result buffer's contents are named `outBlk x0 x1`: the one store's
  payload read through the whole-buffer rectangle.
-/
import proofs.«156964_j73933567033762_1_alg».proof.Proof.Gen.Kernel.Skeleton
import proofs.«156964_j73933567033762_1_alg».proof.Proof.Gen.Kernel.Frame
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses of the body: each is its buffer's whole rectangle. -/
abbrev rX : Rect S8192x128 := Rect.unit (s := S8192x128) ![0, 0] S8192x128.size inb_S8192x128_S8192x128_0_0
abbrev rW : Rect S128x64 := Rect.unit (s := S128x64) ![0, 0] S128x64.size inb_S128x64_S128x64_0_0
abbrev rO : Rect S8192x64 := Rect.unit (s := S8192x64) ![0, 0] S8192x64.size inb_S8192x64_S8192x64_0_0

/-- What the body leaves in the result's staging buffer, from what the two input buffers hold: the product
    payload of the two loads, written through the whole-buffer rectangle. -/
def outBlk (x0 : Vec F S8192x128 .f32) (x1 : Vec F S128x64 .f32) : Vec F S8192x64 .f32 :=
  View.canon [⟨rO, k0_pay1 (View.ld x0 rX) (View.ld x1 rW)⟩]

/-- The one store's rectangle is the whole buffer, so it covers every index. -/
theorem cover_out (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: the inputs' at `x0`, `x1`, the result's at anything; it ends with the inputs'
    as they were and the result's at `outBlk x0 x1`. -/
theorem sound_kernel (c : Dev nD) (E : Set ℕ) (i : grid0.Coords)
    (arg1 : Memref sig .tc .vmem S8192x128 .f32) (harg1 : arg1.IsWhole)
    (arg2 : Memref sig .tc .vmem S128x64 .f32) (harg2 : arg2.IsWhole)
    (arg3 : Memref sig .tc .vmem S8192x64 .f32) (harg3 : arg3.IsWhole)
    (x0 : Vec F S8192x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.Body

end
-- ==== Proof.KernelFrame.lean ====
/-
  The frame of the program as printed, at bit patterns: @main is host operations, one pallas_call over a grid of
  thirteen points, host operations. The last point's block of `x` overhangs the array (rows 98304‥106495 against
  100000 rows), so the staging buffer's last 6496 rows hold words nothing names when the body runs there, and the
  product of that buffer is what the body stores. A frame needs none of it: the body's loads and its store cannot
  fault whatever the buffers hold, so the proof data CONSTRAIN nothing — every window's relation between what the
  body finds and what it leaves holds of any two contents — and the run concludes that the two input arrays end as
  they began (an input array is never written), that the result array holds something, and that every buffer the
  region bypasses and the later host operations do not write is as it was when the region was entered. The argument
  arrays `edge_index` and `b` are such buffers.
-/
import proofs.«156964_j73933567033762_1_alg».proof.Proof.KernelBody
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data that constrain nothing -/

/-- The arrays as the region finds them; of what the body leaves in a staging buffer, nothing; the invariant the
    scoped rest and the generator register, untouched; nothing owed; full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem rdat_A (c : Dev nD) (w : Fin cfg0.W) : (rdat m c).A w = V m c (Pipeline.arrRef spec0 w) := by
  dsimp only [rdat]

theorem rdat_share (c : Dev nD) (w : Fin cfg0.W) : (rdat m c).share w = fullShare := by
  unfold RDat.share; split <;> rfl

/-- The body obligation: whatever the three current buffers hold, the body runs and hands them back holding
    something. -/
theorem body_obligation (c : Dev nD) : (rdat (F := F) m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (Y 0) (Y 1) _)
  isplitl [H0]; · iexact H0
  isplitl [H1]; · iexact H1
  isplitl [H2]; · iexists (Y 2); iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (outBlk (F := F) (Y 0) (Y 1)); isplitr; · ipureintro; trivial
    iexact H2

/-! ## The host operations after the region -/

/-- The buffers they write: results computed from the result array, whose contents the run does not name, so
    nothing is stated of them either. -/
def T0 : Finset (Ref sig .tc) := {main_v31, main_c_6, main_v32, main_v33, main_c_7, main_v34, main_v35, main_v36, main_v37, main_v38, main_v39, main_v40, main_cst_8, main_v41, main_v42, main_v43, main_v44, main_v45, main_v46}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- Every weakly fair execution of @main terminates; each array of the pipeline ends at some contents it may hold
    after the write-backs, and every bypassing buffer the later host operations do not write as the region found it. -/
theorem run_main : θ_run defs (onTc (τ := τ) (main (F := F))) (s₀ m ρ)
    (Pipeline.RDat.FramePostR (cfgs 0) (rdat m) T0 (V m)) :=
  Pipeline.RDat.θ_run_frame_around_T cfgs (0 : Fin 1) launch0 defs₀ Variants.none (rdat m) T0 m ρ main
    (hbody := body_obligation m) (hshare := rdat_share m) (howed := fun _ _ => rfl)
    (V₀ := V0 m) (opss := [hostOps1]) (hsub := sfx_sub) (hfresh := sfx_fresh) (hkeep := sfx_keeps) (hT := sfx_writes)
    (hmain := hmain m Variants.none) (hA := rdat_A m) (hΦ := fun _ _ => rfl)

/-- The frame claim's post: `x` and `W` are input windows' arrays, never written; `edge_index` and `b` bypass the
    region and no later host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Pipeline.RDat.FramePostR.arr_in h c 0 rfl).trans ((rdat_A m c 0).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 1 rfl).trans ((rdat_A m c 1).trans (V_main_arg2 m c)),
      ((h c).2 main_arg3 (Finset.mem_sdiff.mpr ⟨Pipeline.mem_restRefs_of main_arg3 (by decide) (by decide), by decide⟩)).trans (V_main_arg3 m c)⟩)
    (run_main m ρ)

end Cert.Kernel.Body

end
-- ==== Proof.KernelIdealBody.lean ====
/-
  The kernel body's triple, once for every float family: on whole staging buffers holding `x0` (a block of `x`,
  8192 rows of 128) and `x1` (all of `W`, 128 by 64) the body loads both, rounds both to bf16, multiplies them on
  the matrix unit into a zero accumulator and stores the 8192 by 64 product over the whole result buffer; the two
  input buffers are left as they were. The result buffer's contents are named `outBlk x0 x1`: the one store's
  payload read through the whole-buffer rectangle.
-/
import proofs.«156964_j73933567033762_1_alg».proof.Proof.Gen.KernelIdeal.Skeleton
import proofs.«156964_j73933567033762_1_alg».proof.Proof.Gen.KernelIdeal.Frame
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three accesses of the body: each is its buffer's whole rectangle. -/
abbrev rX : Rect S8192x128 := Rect.unit (s := S8192x128) ![0, 0] S8192x128.size inb_S8192x128_S8192x128_0_0
abbrev rW : Rect S128x64 := Rect.unit (s := S128x64) ![0, 0] S128x64.size inb_S128x64_S128x64_0_0
abbrev rO : Rect S8192x64 := Rect.unit (s := S8192x64) ![0, 0] S8192x64.size inb_S8192x64_S8192x64_0_0

/-- What the body leaves in the result's staging buffer, from what the two input buffers hold: the product
    payload of the two loads, written through the whole-buffer rectangle. -/
def outBlk (x0 : Vec F S8192x128 .f32) (x1 : Vec F S128x64 .f32) : Vec F S8192x64 .f32 :=
  View.canon [⟨rO, k0_pay1 (View.ld x0 rX) (View.ld x1 rW)⟩]

/-- The one store's rectangle is the whole buffer, so it covers every index. -/
theorem cover_out (p0 : Vec F S8192x64 .f32) (y : S8192x64.Idx) :
    ∃ pc ∈ ([⟨rO, p0⟩] : List (View.Piece (Elt F) S8192x64 .f32)), y ∈ pc.1.set :=
  View.cover_of_tiled [⟨rO, p0⟩] S8192x64.size (by rfl) y

set_option maxHeartbeats 1000000 in
/-- The body on whole staging memrefs: the inputs' at `x0`, `x1`, the result's at anything; it ends with the inputs'
    as they were and the result's at `outBlk x0 x1`. -/
theorem sound_kernel (c : Dev nD) (E : Set ℕ) (i : grid0.Coords)
    (arg1 : Memref sig .tc .vmem S8192x128 .f32) (harg1 : arg1.IsWhole)
    (arg2 : Memref sig .tc .vmem S128x64 .f32) (harg2 : arg2.IsWhole)
    (arg3 : Memref sig .tc .vmem S8192x64 .f32) (harg3 : arg3.IsWhole)
    (x0 : Vec F S8192x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Body

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KernelIdealBlock.lean ====
/-
  The body's product block at the extended reals, read at an entry, and its dependence on rows.

  At the ideal values rounding to bf16 is the identity and the matrix unit's product into a zero accumulator is the
  exact sum, so the block the body stores is, at row `p` and column `q`, the sum over `k` of `X (p, k) * B (k, q)`:
  a function of row `p` of `X` alone. The grid's last block of `x` overhangs the array; the rows of the staging
  buffer past the array's end hold words nothing names. Two buffers that agree on the rows the transfer moves give
  products that agree on the rows the write-back moves: the cut is on the row axis, the same for `x`'s window and
  the result's, and a product's row reads only its own row of the left operand.
-/
import proofs.«156964_j73933567033762_1_alg».proof.Proof.KernelIdealBody
import proofs.«156964_j73933567033762_1_alg».proof.Proof.LibPlainDot
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Body

open Cert.KernelIdeal Cert.KernelIdeal.Gen
open Idealize.ShloMosaic Idealize.ShloMosaic.TcCoe Idealize.ShloMosaic.ValueIdx

/-- The body's dimension numbers are the plain ones: rows by columns, one contracted axis each, no batch axis. -/
theorem dot_plain : PlainDot.IsPlain (R := 8192) (K := 128) (N := 64) dot_S8192x128_S128x64_S8192x64_1_0_0_1_n_n :=
  ⟨rfl, rfl, rfl, rfl, rfl, rfl⟩

theorem zero_off : (![0, 0] : Fin 2 → Nat) = fun _ => 0 := funext fun a => by fin_cases a <;> rfl

/-- The stored block at an entry: the exact sum of products along the contracted axis. -/
theorem outBlk_apply (X : Vec Ideal S8192x128 .f32) (B : Vec Ideal S128x64 .f32) (p : Fin 8192) (q : Fin 64) :
    outBlk (F := Ideal) X B (ix2 p q) = ∑ k : Fin 128, X (ix2 p k) * B (ix2 k q) := by
  unfold outBlk
  rw [View.canon_unit_zero zero_off, View.ld_unit_zero zero_off, View.ld_unit_zero zero_off]
  unfold k0_pay1
  exact (Ideal.matmul_constant_zero_apply _ none _ _ (ix2 p q)).trans (PlainDot.sum_contr dot_plain X B p q)

/-- Buffers of `x`'s window that agree on the rows a transfer at `i` moves agree at every entry of such a row. -/
theorem eq_of_cut_eq {α : Type} (i : grid0.Coords) {X Y : S8192x128.Idx → α}
    (h : win0_0.cut i X = win0_0.cut i Y) (p : Fin 8192) (k : Fin 128) (hp : p.val < win0_0.xsize i 0) :
    X (ix2 p k) = Y (ix2 p k) := by
  have hk : k.val < win0_0.xsize i 1 := k.isLt
  have e := congrFun h (fun a => match a with | ⟨0, _⟩ => ⟨p.val, hp⟩ | ⟨1, _⟩ => ⟨k.val, hk⟩)
  have e0 : win0_0.xinj i (fun a => match a with | ⟨0, _⟩ => ⟨p.val, hp⟩ | ⟨1, _⟩ => ⟨k.val, hk⟩) = ix2 p k :=
    funext fun a => Fin.ext (match a with | ⟨0, _⟩ => rfl | ⟨1, _⟩ => rfl)
  change X (win0_0.xinj i _) = Y (win0_0.xinj i _) at e
  rwa [e0] at e

/-- So their products agree on the rows the result's write-back at `i` moves. -/
theorem cut_outBlk (i : grid0.Coords) (X Y : Vec Ideal S8192x128 .f32) (B : Vec Ideal S128x64 .f32)
    (h : win0_0.cut i X = win0_0.cut i Y) :
    win0_2.cut i (outBlk (F := Ideal) X B) = win0_2.cut i (outBlk (F := Ideal) Y B) := by
  funext j
  show outBlk (F := Ideal) X B (win0_2.xinj i j) = outBlk (F := Ideal) Y B (win0_2.xinj i j)
  obtain ⟨p, q, hpv, e⟩ : ∃ (p : Fin 8192) (q : Fin 64), p.val = (j 0).val ∧ (win0_2.xinj i j : S8192x64.Idx) = ix2 p q :=
    ⟨win0_2.xinj i j 0, win0_2.xinj i j 1, rfl, eq_ix2 _⟩
  have hp : p.val < win0_0.xsize i 0 := hpv ▸ (j 0).isLt
  rw [e, outBlk_apply, outBlk_apply]
  exact Finset.sum_congr rfl fun k _ => by rw [eq_of_cut_eq i h p k hp]

end Cert.KernelIdeal.Body

end
-- ==== Proof.KernelIdealFrame.lean ====
/-
  The frame of the idealized program, with every array named: the proof data say what each staging buffer holds
  after the body at each of the thirteen points. `x`'s buffer holds its block of `x` on the rows the fetch moved
  (all 8192 but at the last point, where the block overhangs the array and 1696 rows are moved) and, past them,
  what the overwrite before the fetch left, which nothing names; `W`'s buffer holds `W`; the result's buffer holds
  their product. The body obligation states `x`'s and the result's buffers on the moved rows only, and there the
  product does not depend on the unnamed rows (a row of a product reads its own row of the left operand). The run
  then has the result array at the write-backs' composition and every buffer the later host operations compute at
  their value from it.
-/
import proofs.«156964_j73933567033762_1_alg».proof.Proof.KernelIdealBlock
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- `x`'s block at point `t`, filled out to the buffer's 8192 rows with zeros past the rows the fetch moves. -/
def xfull (c : Dev nD) (t : Fin cfg0.N) : Vec Ideal S8192x128 .f32 :=
  win0_0.fill (grid0.coords t) (fun _ => (0 : EReal)) (iblk m c 0 t)

/-- The arrays as the region finds them; after the body `x`'s buffer at its filled-out block, `W`'s at `W`, the
    result's at their product; the invariant the scoped rest and the generator register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => outBlk (F := Ideal) (xfull m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xfull m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = outBlk (F := Ideal) (xfull m c t) (iblk m c 1 t) := by dsimp only [dats]

/-- What the body finds: `x`'s buffer just fetched (its block on the moved rows, `d` past them), -/
theorem before_0 (c : Dev nD) (t : Fin cfg0.N) (d) :
    (dats m 0 c).before 0 t d = win0_0.fill (grid0.coords t) d (iblk m c 0 t) :=
  ((dats m 0 c).before_fetched 0 t (fetch0_0 t) d).trans
    (by unfold Dat.fetched Dat.blockOf iblk; rw [A_eq]; try rfl)
/-- `W`'s buffer at `W` (fetched once, kept since), -/
theorem before_1 (c : Dev nD) (t : Fin cfg0.N) (d) : (dats m 0 c).before 1 t d = iblk m c 1 t :=
  before0_1_of m (dats m 0 c) (A_eq m c 1) (after_1 m c) t d
/-- the result's buffer at anything (written back at every point). -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  -- on the moved rows `x`'s buffer holds its block and the result's the product of the filled-out block
  have hx : win0_0.cut (grid0.coords t) (win0_0.fill (grid0.coords t) d0 (iblk m c 0 t))
      = win0_0.cut (grid0.coords t) (xfull m c t) := by
    unfold xfull; rw [win0_0.cut_fill, win0_0.cut_fill]
  isplitl [H0]
  · iexists d0
    rw [after_0, show win0_0.cut (grid0.coords t) (xfull m c t) = iblk m c 0 t from win0_0.cut_fill _ _ _]
    iexact H0
  isplitl [H1]
  · rw [after_1]; iexact H1
  · iexists (outBlk (F := Ideal) (win0_0.fill (grid0.coords t) d0 (iblk m c 0 t)) (iblk m c 1 t))
    rw [after_2, win0_2.fill_congr_cut (grid0.coords t) (cut_outBlk (grid0.coords t) _ _ (iblk m c 1 t) hx)]
    iexact H2

/-! ## The run and the frame -/

set_option backward.isDefEq.respectTransparency.types false in
/-- Every weakly fair execution of @main terminates with every array of the pipeline at what the write-backs
    compose and every other unscoped buffer at the later host operations' value from the region's exit. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame claim's post. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelIdealArray.lean ====
/-
  The result array of the pallas_call at the extended reals: the product of the whole arrays.

  Point `t` of the grid writes back rows `8192 t ‥ 8192 t + 8191` of the result (the last point, `t = 12`, rows
  98304‥99999: its block is cut at the array's end), and what it writes at row `r`, column `q` is the sum over `k` of
  `x (r, k) * W (k, q)`: the staging buffer's row `r - 8192 t` is row `r` of `x` because that row is among the rows
  the fetch moved. The thirteen blocks cover the 100000 rows, so the array ends holding `x · W`, entry by entry.
-/
import proofs.«156964_j73933567033762_1_alg».proof.Proof.KernelIdealFrame

set_option maxRecDepth 16384

open scoped BigOperators

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The product of a 100000 by 128 array and a 128 by 64 array over the extended reals, entry by entry. -/
def prodArr (x : S100000x128.Idx → EReal) (W : S128x64.Idx → EReal) : S100000x64.Idx → EReal :=
  fun i => ∑ k : Fin 128, x (ix2 (i 0 : Fin 100000) k) * W (ix2 k (i 1 : Fin 64))

/-- The printed index maps over the grid: `x`'s and the result's windows move down the rows with the point, `W`'s
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- How many rows and columns of the result's block a write-back moves: all 8192 rows while the block ends inside the
    array, else the rows up to the array's end; all 64 columns. -/
theorem xsize_facts : ∀ t : Fin cfg0.N,
    ((t.val + 1) * 8192 ≤ 100000 → win0_2.xsize (grid0.coords t) (0 : Fin 2) = 8192)
    ∧ (100000 < (t.val + 1) * 8192 → t.val * 8192 + win0_2.xsize (grid0.coords t) (0 : Fin 2) = 100000)
    ∧ win0_2.xsize (grid0.coords t) (1 : Fin 2) = 64 :=
  (by decide +kernel : ∀ t : Fin grid0.N, _)

/-- `x`'s filled-out block at a moved row is that row of `x`. -/
theorem xfull_apply (c : Dev nD) (t : Fin cfg0.N) (p : Fin 8192) (k : Fin 128)
    (hp : p.val < win0_0.xsize (grid0.coords t) 0) (r : Fin 100000) (hr : r.val = t.val * 8192 + p.val) :
    xfull m c t (ix2 p k) = V m c main_arg0 (ix2 r k) := by
  have hk : k.val < win0_0.xsize (grid0.coords t) 1 := k.isLt
  have e0 : win0_0.xinj (grid0.coords t) (fun a => match a with | ⟨0, _⟩ => ⟨p.val, hp⟩ | ⟨1, _⟩ => ⟨k.val, hk⟩) = ix2 p k :=
    funext fun a => Fin.ext (match a with | ⟨0, _⟩ => rfl | ⟨1, _⟩ => rfl)
  unfold xfull
  rw [← e0, win0_0.fill_xinj]
  show V m c main_arg0 (((cfg0.win 0).blk t).view.emb _) = V m c main_arg0 (ix2 r k)
  obtain ⟨i0, i1, -⟩ := idx_facts t
  congr 1
  funext a; apply Fin.ext
  match a with
  | ⟨0, _⟩ => show win0_0.index t (0 : Fin 2) * 8192 + 1 * p.val = r.val; omega
  | ⟨1, _⟩ => show win0_0.index t (1 : Fin 2) * 128 + 1 * k.val = k.val; omega

/-- `W`'s block is `W`. -/
theorem wblk_apply (c : Dev nD) (t : Fin cfg0.N) (k : Fin 128) (q : Fin 64) :
    iblk m c 1 t (ix2 k q) = V m c main_arg2 (ix2 k q) := by
  show V m c main_arg2 (((cfg0.win 1).blk t).view.emb (ix2 k q)) = V m c main_arg2 (ix2 k q)
  obtain ⟨-, -, i0, i1, -⟩ := idx_facts t
  congr 1
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- What point `t` writes back is block `t` of the product of the arrays as the region finds them. -/
theorem flushed_eq (c : Dev nD) (t : Fin cfg0.N) :
    (dats m 0 c).flushed 2 t
      = ((cfg0.win 2).blk t).view.read (Elt Ideal) (prodArr (V m c main_arg0) (V m c main_arg2)) := by
  show (cfg0.win 2).cut (grid0.coords t) ((dats m 0 c).after 2 t) = _
  rw [after_2]
  obtain ⟨-, -, -, -, o0, o1⟩ := idx_facts t
  funext j
  show outBlk (F := Ideal) (xfull m c t) (iblk m c 1 t) (win0_2.xinj (grid0.coords t) j)
    = prodArr (V m c main_arg0) (V m c main_arg2) (((cfg0.win 2).blk t).view.emb j)
  obtain ⟨p, q, hp, hq, e⟩ : ∃ (p : Fin 8192) (q : Fin 64), p.val = (j 0).val ∧ q.val = (j 1).val
      ∧ (win0_2.xinj (grid0.coords t) j : S8192x64.Idx) = ix2 p q := ⟨_, _, rfl, rfl, eq_ix2 _⟩
  have hj0 : (j 0).val < win0_2.xsize (grid0.coords t) 0 := (j 0).isLt
  have hj1 : (j 1).val < 64 := lt_of_lt_of_le (j 1).isLt (win0_2.xsize_le (grid0.coords t) 1)
  have hpx : p.val < win0_0.xsize (grid0.coords t) 0 := hp ▸ hj0
  have hrow : (((cfg0.win 2).blk t).view.emb j 0).val = t.val * 8192 + p.val := by
    show win0_2.index t (0 : Fin 2) * 8192 + 1 * (j 0).val = _; omega
  have hcol : (((cfg0.win 2).blk t).view.emb j 1).val = q.val := by
    show win0_2.index t (1 : Fin 2) * 64 + 1 * (j 1).val = _; omega
  rw [e, outBlk_apply]
  unfold prodArr
  refine Finset.sum_congr rfl fun k _ => ?_
  rw [xfull_apply m c t p k hpx _ hrow, wblk_apply m c t k q]
  congr 2
  exact congrArg (ix2 k) (Fin.ext hcol.symm)

/-- An index of the result array is in point `t`'s block iff each coordinate is among those the write-back moves. -/
theorem mem_blk (t : Fin cfg0.N) (i : S100000x64.Idx) :
    i ∈ ((cfg0.win 2).blk t).view.set ↔ ∀ a : Fin 2, win0_2.index t a * S8192x64.size a ≤ (i a).val
      ∧ (i a).val < win0_2.index t a * S8192x64.size a + win0_2.xsize (grid0.coords t) a := by
  show i ∈ ((View.whole main_v30).slice (win0_2.rect t)).set ↔ _
  rw [View.set_slice_whole, Rect.mem_set_unit]
  exact Iff.rfl

/-- Every row is some point's: row `r` is in the block of point `r / 8192`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  refine ⟨⟨(i 0).val / 8192, by rw [show cfg0.N = 13 from N_0]; omega⟩, flush0_2 _, ?_⟩
  rw [mem_blk]
  obtain ⟨-, -, -, -, o0, o1⟩ := idx_facts ⟨(i 0).val / 8192, by rw [show cfg0.N = 13 from N_0]; omega⟩
  obtain ⟨x0, x1, x2⟩ := xsize_facts ⟨(i 0).val / 8192, by rw [show cfg0.N = 13 from N_0]; omega⟩
  intro a
  match a with
  | ⟨0, _⟩ =>
    show win0_2.index _ (0 : Fin 2) * 8192 ≤ (i 0).val ∧ (i 0).val < win0_2.index _ (0 : Fin 2) * 8192 + win0_2.xsize _ (0 : Fin 2)
    rw [o0]
    dsimp only at x0 x1 ⊢
    by_cases hc : ((i 0).val / 8192 + 1) * 8192 ≤ 100000
    · rw [x0 hc]; omega
    · have := x1 (by omega); omega
  | ⟨1, _⟩ =>
    show win0_2.index _ (1 : Fin 2) * 64 ≤ (i 1).val ∧ (i 1).val < win0_2.index _ (1 : Fin 2) * 64 + win0_2.xsize _ (1 : Fin 2)
    rw [o1, x2]; omega

/-- The result array after the run is the product of `x` and `W` as launched. -/
theorem final (c : Dev nD) : (dats m 0 c).arrAt 2 cfg0.N
    = prodArr (m ((c : Thread nD τ).loc main_arg0)) (m ((c : Thread nD τ).loc main_arg2)) := by
  rw [← V_main_arg0 m c, ← V_main_arg2 m c]
  exact (dats m 0 c).arrAt_eq_of_cover 2 _ (fun t _ => flushed_eq m c t) cover

end Cert.KernelIdeal.Body

end
-- ==== Proof.Bridge.lean ====
/-
  The two idealized programs compute one function.

  Both @mains are the same host operations around one product: from `edge_index` the source and target lists with
  the self loops appended, the in-degrees by a scatter-add of ones, their inverse square roots where positive, the
  per-edge norms; then `h = x · W`; then the rows of `h` gathered at the sources, scaled by the norms, scatter-added
  at the targets, and the bias added. The kernel program computes `h` by the pallas_call, whose result array is the
  exact product entry by entry; the reference by one general dot product, which at the extended reals is the same
  sum. Every other operation is the same operation of the same operands, so the two results are one term once `h`
  is one array: no law of the extended reals is used beyond the product's reading as a sum.
-/
import proofs.«156964_j73933567033762_1_alg».proof.Proof.KernelIdealArray
import proofs.«156964_j73933567033762_1_alg».proof.Proof.RefRunP

set_option maxRecDepth 16384

open scoped BigOperators

noncomputable section

namespace Cert.Bridge

open Idealize.ShloMosaic Idealize.ShloMosaic.TcCoe Idealize.SL.Sem Idealize.ShloMosaic.StableHlo
open Idealize.ShloMosaic.ValueIdx

/-! ## The host operations after the product, for any float family -/

section Tail

variable {F : FTy → Type} [FloatOps F]

set_option maxHeartbeats 4000000 in
/-- The kernel program's result — its later host operations run from the region's exit, the result array at `A 2` —
    is the reference's composed term, when `A 2` is the reference's product and the two memories agree on
    `edge_index` and `b`: both are the same operations of `edge_index`, `b` and the product. -/
theorem tail_eq (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (A : (w : Fin 3) → Buf (Elt F) ((Cert.KernelIdeal.spec0 w).arr.view.loc (c.tc : Thread Cert.KernelIdeal.nD Cert.KernelIdeal.τ)))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hA : A 2 = Host.dotGeneral Cert.ReferenceIdeal.dot_S100000x128_S128x64_S100000x64_1_0_0_1_n_n none
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))) :
    StableHlo.after (Cert.KernelIdeal.Gen.hostOps1 (F := F))
      (Pipeline.withArrays Cert.KernelIdeal.spec0 c (Cert.KernelIdeal.Gen.V0 m c) A) (Proc.devRef .tc Cert.KernelIdeal.main_v46)
      = Cert.ReferenceIdeal.ValueP.res_main_v46 m' c := by
  -- the later operations, composed over what the region left
  after_results_simp
  -- of what they read, only the product is an array of the pipeline; the rest is as the region found it
  rw [Pipeline.withArrays_of_ne Cert.KernelIdeal.spec0 c (Cert.KernelIdeal.Gen.V0 m c) A Cert.KernelIdeal.main_v6 (by decide),
    Pipeline.withArrays_of_ne Cert.KernelIdeal.spec0 c (Cert.KernelIdeal.Gen.V0 m c) A Cert.KernelIdeal.main_v29 (by decide),
    Pipeline.withArrays_of_ne Cert.KernelIdeal.spec0 c (Cert.KernelIdeal.Gen.V0 m c) A Cert.KernelIdeal.main_v3 (by decide),
    Pipeline.withArrays_of_ne Cert.KernelIdeal.spec0 c (Cert.KernelIdeal.Gen.V0 m c) A Cert.KernelIdeal.main_arg3 (by decide),
    (Pipeline.withArrays_arr Cert.KernelIdeal.spec0 Cert.KernelIdeal.Gen.launch0.win.arr_inj c (Cert.KernelIdeal.Gen.V0 m c) A 2 :
      Pipeline.withArrays Cert.KernelIdeal.spec0 c (Cert.KernelIdeal.Gen.V0 m c) A (Proc.devRef .tc Cert.KernelIdeal.main_v30) = A 2)]
  -- and that is the earlier operations composed over the launch memory
  dsimp only [Cert.KernelIdeal.Gen.V0]
  simp only [Cert.KernelIdeal.Gen.hostOps0, Cert.KernelIdeal.Gen.hostOps0_1, Cert.KernelIdeal.Gen.hostOps0_2, List.flatten_cons, List.flatten_nil,
    List.append_nil, List.cons_append, List.nil_append]
  after_results_simp
  rw [hA]
  unfold Cert.ReferenceIdeal.ValueP.res_main_v46
  rw [h1, h3]
  rfl

end Tail

/-! ## The product, at the extended reals -/

/-- The reference's dimension numbers are the plain ones. -/
theorem ref_dot_plain : PlainDot.IsPlain (R := 100000) (K := 128) (N := 64)
    Cert.ReferenceIdeal.dot_S100000x128_S128x64_S100000x64_1_0_0_1_n_n := ⟨rfl, rfl, rfl, rfl, rfl, rfl⟩

/-- The entrywise product is the reference's general dot product. -/
theorem prod_eq_dot (x : Cert.KernelIdeal.S100000x128.Idx → EReal) (W : Cert.KernelIdeal.S128x64.Idx → EReal) :
    Cert.KernelIdeal.Body.prodArr x W
      = Host.dotGeneral (F := Ideal) (φ₁ := .f32) (φ₂ := .f32) Cert.ReferenceIdeal.dot_S100000x128_S128x64_S100000x64_1_0_0_1_n_n none x W := by
  funext i
  obtain ⟨p, q, rfl⟩ : ∃ (p : Fin 100000) (q : Fin 64), i = ix2 p q := ⟨i 0, i 1, eq_ix2 i⟩
  exact (PlainDot.dotGeneral_apply ref_dot_plain none _ x W p q).symm

/-! ## The kernel program's run, its result named by the reference's term -/

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- What the kernel program's result buffer holds after the later host operations is the reference's term. -/
theorem tail_value (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Pipeline.afterTail₀ Cert.KernelIdeal.cfgs (Cert.KernelIdeal.Body.dats m) 0 (Cert.KernelIdeal.Gen.V0 m) [Cert.KernelIdeal.Gen.hostOps1] c Cert.KernelIdeal.main_v46
      = Cert.ReferenceIdeal.ValueP.res_main_v46 m' c := by
  unfold Pipeline.afterTail₀
  show StableHlo.after Cert.KernelIdeal.Gen.hostOps1 (Pipeline.withArrays Cert.KernelIdeal.spec0 c (Cert.KernelIdeal.Gen.V0 m c)
    fun w => (Cert.KernelIdeal.Body.dats m 0 c).arrAt w Cert.KernelIdeal.cfg0.N) (Proc.devRef .tc Cert.KernelIdeal.main_v46) = _
  refine tail_eq m m' c _ hag.2.1 hag.2.2.2 ?_
  show (Cert.KernelIdeal.Body.dats m 0 c).arrAt 2 Cert.KernelIdeal.cfg0.N = _
  rw [Cert.KernelIdeal.Body.final, prod_eq_dot, hag.1, hag.2.2.1]

/-- The kernel program's run: it terminates with the result at the reference's term and the arguments unchanged. -/
theorem kernel_run
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v46) = Cert.ReferenceIdeal.ValueP.res_main_v46 m' c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ h c =>
    ⟨((h c).2 Cert.KernelIdeal.main_v46 (Pipeline.mem_restRefs_of Cert.KernelIdeal.main_v46 (by decide) (by decide))).trans (tail_value m m' c (hag c)),
      ((h c).1 0).trans (((Cert.KernelIdeal.Body.dats m 0 c).arrAt_in 0 rfl _).trans ((Cert.KernelIdeal.Body.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Body.dats m) c),
      ((h c).1 1).trans (((Cert.KernelIdeal.Body.dats m 0 c).arrAt_in 1 rfl _).trans ((Cert.KernelIdeal.Body.A_eq m c 1).trans (Cert.KernelIdeal.Gen.V_main_arg2 m c))),
      ((h c).2 Cert.KernelIdeal.main_arg3 (Pipeline.mem_restRefs_of Cert.KernelIdeal.main_arg3 (by decide) (by decide))).trans (Cert.KernelIdeal.Gen.W_main_arg3 m (Cert.KernelIdeal.Body.dats m) c)⟩)
    (Cert.KernelIdeal.Body.run_main m ρ)

end Cert.Bridge

end
-- ==== Proof.lean ====
/-
  The certificate: a graph convolution layer whose dense product `h = x · W` is a Pallas kernel, against the same
  layer written with one general dot product.

  The kernel tiles the 100000 rows of `x` in thirteen blocks of 8192; the last block overhangs the array by 6496
  rows, so at that point the staging buffer's tail holds words nothing names, and the matrix unit multiplies the
  whole buffer. The rows of the product that the write-back moves are rows of `x` inside the array, and a row of a
  product reads only its own row of the left operand, so over the extended reals the result array is `x · W` entry
  by entry, which is what the reference's dot product is. Everything around the product — self loops, degrees,
  inverse square roots, the gather, the scaling, the scatter-add, the bias — is one sequence of host operations in
  both programs.

  The frames: the program as printed (bit patterns) is run with proof data that say nothing of what the body leaves
  in its buffers (the product at bit patterns may depend on the unnamed tail, and a frame does not ask); the idealized
  program with every buffer named; the reference by its run. The ideal pass rewrote nothing, so the preservation
  conjunct is trivial.
-/
import proofs.«156964_j73933567033762_1_alg».proof.Defs
import proofs.«156964_j73933567033762_1_alg».proof.Proof.Gen.Pre_finite_inputs
import proofs.«156964_j73933567033762_1_alg».proof.Proof.KernelFrame
import proofs.«156964_j73933567033762_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with their result at the reference's composed term of the arguments. -/
theorem algebraic : Cert.algebraic_KernelIdeal_ReferenceIdeal := fun m ρ m' ρ' _ hagree =>
  ⟨fun c => Cert.ReferenceIdeal.ValueP.res_main_v46 (F := Ideal) m' c,
    Cert.Bridge.kernel_run m ρ m' hagree,
    Cert.ReferenceIdeal.ValueP.run (F := Ideal) m' ρ'⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
